-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S256x1024 : Shape := ⟨2, ![256, 1024]⟩
abbrev S256 : Shape := ⟨1, ![256]⟩
abbrev S800000 : Shape := ⟨1, ![800000]⟩
abbrev S50000 : Shape := ⟨1, ![50000]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg6 : FVec F S50000 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S50000 .f32 := Host.absf main_arg6
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  main_v23

def fn {F : FTy → Type} [FloatOps F] (main_arg0 : FVec F S50000x1024 .f32) (main_arg1 : FVec F S256x1024 .f32) (main_arg2 : FVec F S256 .f32) (main_arg3 : IVec S800000 32) (main_arg4 : IVec S800000 32) (main_arg5 : FVec F S800000 .f32) (main_arg6 : FVec F S50000 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg6 main_v13 main_v16
-- ==== Kernel.lean ====
abbrev S50000x1024 : Shape := ⟨2, ![50000, 1024]⟩
abbrev S256x1024 : Shape := ⟨2, ![256, 1024]⟩
abbrev S256 : Shape := ⟨1, ![256]⟩
abbrev S800000 : Shape := ⟨1, ![800000]⟩
abbrev S50000 : Shape := ⟨1, ![50000]⟩
abbrev S1x256 : Shape := ⟨2, ![1, 256]⟩
abbrev S50000x256 : Shape := ⟨2, ![50000, 256]⟩
abbrev S2000x1024 : Shape := ⟨2, ![2000, 1024]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩

abbrev nBuf : Space → Nat
  | .hbm => 30
  | .vmem => 6
  | .smem => 0
  | _ => 0

abbrev bufTy : (tb : Table) → Fin (tcTables nBuf tb) → BufTy
  | .hbm, ⟨0, _⟩ => ⟨S50000x1024, .f32⟩
  | .hbm, ⟨1, _⟩ => ⟨S256x1024, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000, .f32⟩
  | .hbm, ⟨7, _⟩ => ⟨S256x1024, .bf16⟩
  | .hbm, ⟨8, _⟩ => ⟨S1x256, .f32⟩
  | .hbm, ⟨9, _⟩ => ⟨S50000x256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x1, .f32⟩
  | .hbm, ⟨20, _⟩ => ⟨S800000x256, .f32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S50000x1, .f32⟩
  | .hbm, ⟨27, _⟩ => ⟨S50000x256, .f32⟩
  | .hbm, ⟨28, _⟩ => ⟨S50000x256, .f32⟩
  | .hbm, ⟨29, _⟩ => ⟨S50000x256, .f32⟩
  | .local _ .vmem, ⟨0, _⟩ => ⟨S2000x1024, .f32⟩
  | .local _ .vmem, ⟨1, _⟩ => ⟨S2000x1024, .f32⟩
  | .local _ .vmem, ⟨2, _⟩ => ⟨S256x1024, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S256_S1x256 : S256.ShapeCasts S1x256
  inb_S2000x1024_S2000x1024_0_0 : ∀ a, (![0, 0] : Fin 2 → Nat) a + S2000x1024.size a ≤ S2000x1024.size a
  h_S2000x1024 : 0 < S2000x1024.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  dot_S2000x1024_S256x1024_S2000x256_1_1_0_0_n_n_wf : DotDims.WF S2000x1024 S256x1024 S2000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def dot_S2000x1024_S256x1024_S2000x256_1_1_0_0_n_n : DotDims S2000x1024 S256x1024 S2000x256 where
  lhsContracting := [1]
  rhsContracting := [1]
  lhsNonContracting := [0]
  rhsNonContracting := [0]
  lhsBatch := []
  rhsBatch := []
  wf := dot_S2000x1024_S256x1024_S2000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S256x1024 : Shape := ⟨2, ![256, 1024]⟩
abbrev S256 : Shape := ⟨1, ![256]⟩
abbrev S800000 : Shape := ⟨1, ![800000]⟩
abbrev S50000 : Shape := ⟨1, ![50000]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩

abbrev nBuf : Space → Nat
  | .hbm => 31
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S256x1024, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000, .f32⟩
  | .hbm, ⟨7, _⟩ => ⟨S50000x256, .f32⟩
  | .hbm, ⟨8, _⟩ => ⟨S1x256, .f32⟩
  | .hbm, ⟨9, _⟩ => ⟨S50000x256, .f32⟩
  | .hbm, ⟨10, _⟩ => ⟨S50000x256, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S800000x1, .f32⟩
  | .hbm, ⟨21, _⟩ => ⟨S800000x256, .f32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S50000x1, .f32⟩
  | .hbm, ⟨28, _⟩ => ⟨S50000x256, .f32⟩
  | .hbm, ⟨29, _⟩ => ⟨S50000x256, .f32⟩
  | .hbm, ⟨30, _⟩ => ⟨S50000x256, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  dot_S50000x1024_S256x1024_S50000x256_1_1_0_0_n_n_wf : DotDims.WF S50000x1024 S256x1024 S50000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x1024_S256x1024_S50000x256_1_1_0_0_n_n : DotDims S50000x1024 S256x1024 S50000x256 where
  lhsContracting := [1]
  rhsContracting := [1]
  lhsNonContracting := [0]
  rhsNonContracting := [0]
  lhsBatch := []
  rhsBatch := []
  wf := dot_S50000x1024_S256x1024_S50000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.Spec.lean ====
/-
  The linear layer as one function of its three argument arrays, index by index, on the extended reals:
  entry (p, q) of  x · Wᵀ + b  is  (∑ k, x[p, k] · W[q, k]) + b[q].
  Both programs compute this array first (the kernel block of 2000 rows by block of 2000 rows on the MXU,
  the reference by one contraction over the whole array) and then apply the same aggregation to it.
-/
import Idealize.ShloMosaic.Lib.ValueIdx
import Idealize.ShloMosaic.PureOps.Ideal

noncomputable section

namespace Cert.Bridge

open Idealize.ShloMosaic Idealize.ShloMosaic.ValueIdx

/-- Entry (p, q) of `x · Wᵀ + b`: row `p` of `x` against row `q` of `W`, summed over the 1024 input channels, plus the
    bias of output channel `q`. -/
def projEntry (X : (⟨2, ![50000, 1024]⟩ : Shape).Idx → EReal) (Wt : (⟨2, ![256, 1024]⟩ : Shape).Idx → EReal)
    (b : (⟨1, ![256]⟩ : Shape).Idx → EReal) (p : Fin 50000) (q : Fin 256) : EReal :=
  (∑ k : Fin 1024, X (ix2 p k) * Wt (ix2 q k)) + b (ix1 q)

/-- The projected node features `x · Wᵀ + b` as an array over [50000, 256]. -/
def proj (X : (⟨2, ![50000, 1024]⟩ : Shape).Idx → EReal) (Wt : (⟨2, ![256, 1024]⟩ : Shape).Idx → EReal)
    (b : (⟨1, ![256]⟩ : Shape).Idx → EReal) : (⟨2, ![50000, 256]⟩ : Shape).Idx → EReal :=
  fun i => projEntry X Wt b (i 0) (i 1)

theorem proj_ix2 (X : (⟨2, ![50000, 1024]⟩ : Shape).Idx → EReal) (Wt : (⟨2, ![256, 1024]⟩ : Shape).Idx → EReal)
    (b : (⟨1, ![256]⟩ : Shape).Idx → EReal) (p : Fin 50000) (q : Fin 256) :
    proj X Wt b (ix2 p q) = projEntry X Wt b p q := rfl

end Cert.Bridge

end
-- ==== Proof.KernelPayload.lean ====
/-
  What the kernel body stores, read at an entry: for a block of 2000 rows `v0` of `x`, the whole (bf16-typed) weight
  array `v2` and the bias row `v5`, entry (p, q) of the stored block is (∑ k, v0[p, k] · v2[q, k]) + v5[0, q] on the
  extended reals: the narrowing of `x` to bf16 is the identity there, the MXU product into a zero accumulator is the
  plain sum over the contracted axis (axis 1 of both operands), and the bias row is broadcast down the rows.
-/
import proofs.«130467_j52871047413953_1_alg».proof.Proof.Gen.KernelIdeal.Skeleton
import proofs.«130467_j52871047413953_1_alg».proof.Proof.Spec
import Idealize.ShloMosaic.Lib.ValueIdx
import Idealize.ShloMosaic.Lib.Pipeline.Value
import Idealize.ShloMosaic.PureOps.Ideal.Laws

noncomputable section

namespace Cert.Bridge.Kernel

open Cert.KernelIdeal Cert.KernelIdeal.Gen Idealize.ShloMosaic Idealize.ShloMosaic.ValueIdx

/-! The operand indices of the block product, axis by axis: the left operand is read at (row of the output, k), the
    right at (column of the output, k). -/

theorem mm_lhs_0 (i : S2000x256.Idx) (q : dot_S2000x1024_S256x1024_S2000x256_1_1_0_0_n_n.contr.Idx) :
    (dot_S2000x1024_S256x1024_S2000x256_1_1_0_0_n_n.lhsIdx i q 0).val = (i 0).val := by
  unfold DotDims.lhsIdx
  rw [dif_neg (show ¬(0 : Fin S2000x1024.rank) ∈ dot_S2000x1024_S256x1024_S2000x256_1_1_0_0_n_n.lhsBatch by decide), dif_pos (show (0 : Fin S2000x1024.rank) ∈ dot_S2000x1024_S256x1024_S2000x256_1_1_0_0_n_n.lhsNonContracting by decide)]
  rfl
theorem mm_lhs_1 (i : S2000x256.Idx) (q : dot_S2000x1024_S256x1024_S2000x256_1_1_0_0_n_n.contr.Idx) :
    (dot_S2000x1024_S256x1024_S2000x256_1_1_0_0_n_n.lhsIdx i q 1).val = (q ⟨0, by decide⟩).val :=
  dot_S2000x1024_S256x1024_S2000x256_1_1_0_0_n_n.lhsIdx_val_of_single rfl i q
theorem mm_rhs_0 (i : S2000x256.Idx) (q : dot_S2000x1024_S256x1024_S2000x256_1_1_0_0_n_n.contr.Idx) :
    (dot_S2000x1024_S256x1024_S2000x256_1_1_0_0_n_n.rhsIdx i q 0).val = (i 1).val := by
  unfold DotDims.rhsIdx
  rw [dif_neg (show ¬(0 : Fin S256x1024.rank) ∈ dot_S2000x1024_S256x1024_S2000x256_1_1_0_0_n_n.rhsBatch by decide), dif_pos (show (0 : Fin S256x1024.rank) ∈ dot_S2000x1024_S256x1024_S2000x256_1_1_0_0_n_n.rhsNonContracting by decide)]
  rfl
theorem mm_rhs_1 (i : S2000x256.Idx) (q : dot_S2000x1024_S256x1024_S2000x256_1_1_0_0_n_n.contr.Idx) :
    (dot_S2000x1024_S256x1024_S2000x256_1_1_0_0_n_n.rhsIdx i q 1).val = (q ⟨0, by decide⟩).val :=
  dot_S2000x1024_S256x1024_S2000x256_1_1_0_0_n_n.rhsIdx_val_of_single rfl i q

/-- The block product into the zero accumulator, at entry (p, q): the sum over the 1024 input channels of
    left[p, k] · right[q, k]. -/
theorem block_product_apply (l : FVec Ideal S2000x1024 .bf16) (r : FVec Ideal S256x1024 .bf16) (p : Fin 2000) (q : Fin 256) :
    matmul dot_S2000x1024_S256x1024_S2000x256_1_1_0_0_n_n none l r (constant S2000x256 .f32 0x00000000#32) (ix2 p q)
      = ∑ k : Fin 1024, l (ix2 p k) * r (ix2 q k) := by
  simp only [matmul]
  rw [Ideal.matmul_constant_zero_apply, ← Equiv.sum_comp (contrEquiv1 dot_S2000x1024_S256x1024_S2000x256_1_1_0_0_n_n 1024 rfl rfl).symm]
  refine Finset.sum_congr rfl fun k _ => ?_
  have hk := contrEquiv1_symm_val dot_S2000x1024_S256x1024_S2000x256_1_1_0_0_n_n 1024 rfl rfl k
  have el : dot_S2000x1024_S256x1024_S2000x256_1_1_0_0_n_n.lhsIdx (ix2 p q) ((contrEquiv1 dot_S2000x1024_S256x1024_S2000x256_1_1_0_0_n_n 1024 rfl rfl).symm k) = ix2 p k := funext fun a => Fin.ext (by
    match a with
    | ⟨0, _⟩ => exact mm_lhs_0 _ _
    | ⟨1, _⟩ => exact (mm_lhs_1 _ _).trans hk)
  have er : dot_S2000x1024_S256x1024_S2000x256_1_1_0_0_n_n.rhsIdx (ix2 p q) ((contrEquiv1 dot_S2000x1024_S256x1024_S2000x256_1_1_0_0_n_n 1024 rfl rfl).symm k) = ix2 q k := funext fun a => Fin.ext (by
    match a with
    | ⟨0, _⟩ => exact mm_rhs_0 _ _
    | ⟨1, _⟩ => exact (mm_rhs_1 _ _).trans hk)
  rw [el, er]

/-- The bias row broadcast down the 2000 rows of the block, at entry (p, q): the row's entry q. -/
theorem bias_rows_apply (v : FVec Ideal S1x256 .f32) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The stored block at entry (p, q). -/
theorem pay_apply (v0 : Vec Ideal S2000x1024 .f32) (v2 : Vec Ideal S256x1024 .bf16) (v5 : Vec Ideal S1x256 .f32)
    (p : Fin 2000) (q : Fin 256) :
    k0_pay1 (F := Ideal) v0 v2 v5 (ix2 p q) = (∑ k : Fin 1024, v0 (ix2 p k) * v2 (ix2 q k)) + v5 (ix2 0 q) := by
  unfold k0_pay1
  rw [shapeCast_self, shapeCast_self, addf_apply, block_product_apply, bias_rows_apply]
  rfl

/-- When the loaded block's row `p` is row `P` of `x`, the loaded weights are `W` and the loaded bias row is `b`, the
    stored entry (p, q) is entry (P, q) of `x · Wᵀ + b`. -/
theorem pay_is_proj (X : (⟨2, ![50000, 1024]⟩ : Shape).Idx → EReal) (Wt : (⟨2, ![256, 1024]⟩ : Shape).Idx → EReal)
    (b : (⟨1, ![256]⟩ : Shape).Idx → EReal)
    (x0 : Vec Ideal S2000x1024 .f32) (x1 : Vec Ideal S256x1024 .bf16) (x2 : Vec Ideal S1x256 .f32)
    (P : Fin 50000) (p : Fin 2000) (q : Fin 256)
    (h0 : ∀ k : Fin 1024, x0 (ix2 p k) = X (ix2 P k))
    (h1 : ∀ k : Fin 1024, x1 (ix2 q k) = Wt (ix2 q k))
    (h2 : x2 (ix2 0 q) = b (ix1 q)) :
    k0_pay1 (F := Ideal) x0 x1 x2 (ix2 p q) = Cert.Bridge.projEntry X Wt b P q := by
  rw [pay_apply, h2]
  unfold Cert.Bridge.projEntry
  exact congrArg (· + b (ix1 q)) (Finset.sum_congr rfl fun k _ => by rw [h0 k, h1 k])

end Cert.Bridge.Kernel

end
-- ==== Proof.KernelArray.lean ====
/-
  The array the kernel region leaves: H = x · Wᵀ + b over [50000, 256].
  Grid point t (of 25) loads rows 2000·t … 2000·t + 1999 of `x`, the whole weight array (the host's bf16-typed copy of
  `W`, the same reals) and the bias as a 1 × 256 row (the host's reshape of `b`), and writes back rows
  2000·t … 2000·t + 1999 of the result. Entry (p, q) of that block is entry (2000·t + p, q) of x · Wᵀ + b, and the 25
  blocks tile the 50000 rows: row r lies in the block of point r / 2000.
-/
import proofs.«130467_j52871047413953_1_alg».proof.Proof.Gen.KernelIdeal.Frame
import proofs.«130467_j52871047413953_1_alg».proof.Proof.KernelPayload
import proofs.«130467_j52871047413953_1_alg».proof.Proof.Spec
import Idealize.ShloMosaic.Lib.Pipeline.Value
import Idealize.ShloMosaic.Lib.StableHlo.Run
import Idealize.ShloMosaic.Lib.ValueIdx
import Idealize.ShloMosaic.PureOps.Ideal

set_option maxRecDepth 16384

noncomputable section

namespace Cert.Bridge.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The two arrays the host prepares before the region -/

/-- The weights as the region finds them: the host's narrowing of `W` to bf16 is the identity on the extended reals. -/
theorem weights_staged (c : Dev nD) : (V m c main_v0 : S256x1024.Idx → EReal) = m ((c : Thread nD τ).loc main_arg1) := by
  show StableHlo.after hostOps0 (fun b => m (c, b)) (Proc.devRef .tc main_v0) = _
  after_results
  rfl

/-- The bias as the region finds it: the 1 × 256 row whose entry (0, q) is `b[q]`. -/
theorem bias_staged (c : Dev nD) (q : Fin 256) :
    V m c main_v1 (ix2 (0 : Fin 1) q) = m ((c : Thread nD τ).loc main_arg2) (ix1 q) := by
  show StableHlo.after hostOps0 (fun b => m (c, b)) (Proc.devRef .tc main_v1) _ = _
  after_results
  show shapeCast S1x256 (m ((c : Thread nD τ).loc main_arg2)) shapeCasts_S256_S1x256 (ix2 (0 : Fin 1) q) = _
  refine shapeCast_apply _ shapeCasts_S256_S1x256 (ix2 (0 : Fin 1) q) (ix1 q) ?_
  rw [Shape.rowMajor_val_one, Shape.rowMajor_val_two]
  show q.val = 0 * 256 + q.val
  omega

/-! ## What a grid point writes back -/

/-- The projected features of the launch contents. -/
abbrev H (c : Dev nD) : S50000x256.Idx → EReal :=
  Cert.Bridge.proj (m ((c : Thread nD τ).loc main_arg0)) (m ((c : Thread nD τ).loc main_arg1)) (m ((c : Thread nD τ).loc main_arg2))

theorem zero_offsets : (![0, 0] : Fin 2 → Nat) = fun _ => 0 := funext fun a => by fin_cases a <;> rfl

/-- The printed block indices over the 25 grid points: the `x` window and the output window are at block row `t`, block
    column 0; the weight and bias windows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t` writes back block `t` of `H`. -/
theorem flushed_eq (c : Dev nD) (t : Fin cfg0.N) :
    (dats m 0 c).flushed 3 t = ((cfg0.win 3).blk t).view.read (Elt Ideal) (H m c) := by
  show (cfg0.win 3).cut (grid0.coords t) ((dats m 0 c).after 3 t) = _
  rw [after0_3]
  unfold out0_3
  rw [View.canon_unit_zero zero_offsets]
  simp only [View.ld_unit_zero (S := S2000x1024) zero_offsets, View.ld_unit_zero (S := S256x1024) zero_offsets,
    View.ld_unit_zero (S := S1x256) zero_offsets]
  obtain ⟨e00, e01, e10, e11, e20, e21, e30, e31⟩ := block_indices t
  have ht : t.val < 25 := t.isLt
  funext j
  obtain ⟨p, q, rfl⟩ : ∃ (p : Fin 2000) (q : Fin 256), j = ix2 p q := ⟨j 0, j 1, eq_ix2 j⟩
  have hp : p.val < 2000 := p.isLt
  show k0_pay1 (F := Ideal) (iblk m c 0 t) (iblk m c 1 t) (iblk m c 2 t) (ix2 p q)
    = H m c (((cfg0.win 3).blk t).view.emb (ix2 p q))
  refine (pay_is_proj (m ((c : Thread nD τ).loc main_arg0)) (m ((c : Thread nD τ).loc main_arg1)) (m ((c : Thread nD τ).loc main_arg2))
    (iblk m c 0 t) (iblk m c 1 t) (iblk m c 2 t) ⟨t.val * 2000 + p.val, by omega⟩ p q ?_ ?_ ?_).trans ?_
  · intro k
    show V m c main_arg0 (((cfg0.win 0).blk t).view.emb (ix2 p k)) = _
    rw [V_main_arg0]
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 1024 + 1 * k.val = k.val; omega
  · intro k
    show V m c main_v0 (((cfg0.win 1).blk t).view.emb (ix2 q k)) = _
    rw [weights_staged]
    refine congrArg _ (funext fun a => Fin.ext ?_)
    match a with
    | ⟨0, _⟩ => show win0_1.index t (0 : Fin 2) * 256 + 1 * q.val = q.val; omega
    | ⟨1, _⟩ => show win0_1.index t (1 : Fin 2) * 1024 + 1 * k.val = k.val; omega
  · show V m c main_v1 (((cfg0.win 2).blk t).view.emb (ix2 (0 : Fin 1) q)) = _
    rw [← bias_staged m c q]
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega
  · have hP : (⟨t.val * 2000 + p.val, by omega⟩ : Fin 50000) = ((cfg0.win 3).blk t).view.emb (ix2 p q) 0 := Fin.ext (by
      show t.val * 2000 + p.val = win0_3.index t (0 : Fin 2) * 2000 + 1 * p.val; omega)
    have hq : q = ((cfg0.win 3).blk t).view.emb (ix2 p q) 1 := Fin.ext (by
      show q.val = win0_3.index t (1 : Fin 2) * 256 + 1 * q.val; omega)
    exact congrArg₂ (Cert.Bridge.projEntry _ _ _) hP hq

/-! ## The 25 blocks tile the array -/

/-- An index of the result array is in point `t`'s block iff each coordinate is in the block's range on its axis. -/
theorem mem_block (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v2).slice (win0_3.rect t)).set ↔ _
  rw [View.set_slice_whole, Rect.mem_set_unit]
  exact Iff.rfl

/-- Row `r` is written back by point `r / 2000`. -/
theorem covered (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨_, _, _, _, _, _, e30, e31⟩ := block_indices t
  have htv : t.val = (i 0).val / 2000 := rfl
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The result array of the region after the run is `H`. -/
theorem region_result (c : Dev nD) : (dats m 0 c).arrAt 3 cfg0.N = H m c :=
  (dats m 0 c).arrAt_eq_of_cover 3 (H m c) (fun t _ => flushed_eq m c t) (covered)

end Cert.Bridge.Kernel

end
-- ==== Proof.Aggregate.lean ====
/-
  The aggregation both programs apply to the projected node features H = x · Wᵀ + b, as one function of H and of the
  four edge / node arrays:
    msgs[e, :] = H[src[e], :] · w[e]        (a negative source index first wrapped by +50000, then the row gather)
    agg        = scatter-add of msgs into a zero [50000, 256] array at rows tar[e]
    result     = agg + s[:, None] · H       (the self-loop term).
  The kernel's program and the reference apply the same twenty host operations, in the same order, to their H.
-/
import proofs.«130467_j52871047413953_1_alg».proof.Proof.Gen.KernelIdeal

noncomputable section

namespace Cert.Bridge

open Cert.KernelIdeal Cert.KernelIdeal.Facts₀ Cert.KernelIdeal.Facts Idealize.ShloMosaic

variable {F : FTy → Type} [FloatOps F]

/-- Gather the rows of `H` at the (wrapped) source indices, scale each by its edge weight, scatter-add the messages at
    the target indices into zeros, and add the self-loop term `s · H`. -/
def aggregate (H : (⟨S50000x256, .f32⟩ : BufTy).Contents (Elt F)) (src tar : (⟨S800000, .i32⟩ : BufTy).Contents (Elt F))
    (ew : (⟨S800000, .f32⟩ : BufTy).Contents (Elt F)) (sw : (⟨S50000, .f32⟩ : BufTy).Contents (Elt F)) :
    (⟨S50000x256, .f32⟩ : BufTy).Contents (Elt F) :=
  addf (Host.scatterAdd scatter_S50000x256_S800000x1_S800000x256_1_0_0_1 (broadcastInDim S50000x256 ![] bcast_S_S50000x256 (constant S_ .f32 0x00000000#32)) (broadcastInDim S800000x1 ![0] bcast_S800000_S800000x1_0 tar) (mulf (Host.gather gather_S50000x256_S800000x1_S800000x256_1_0_n_n_0_1_1256 H (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x256 ![0, 1] bcast_S800000x1_S800000x256_0_1 (broadcastInDim S800000x1 ![0] bcast_S800000_S800000x1_0 ew)))) (mulf (broadcastInDim S50000x256 ![0, 1] bcast_S50000x1_S50000x256_0_1 (broadcastInDim S50000x1 ![0] bcast_S50000_S50000x1_0 sw)) H)

end Cert.Bridge

end
-- ==== Proof.KernelRun.lean ====
/-
  The kernel's program, run: after the region has left H = x · Wᵀ + b in its result array, the twenty host operations
  that follow compute the aggregation of H with the launch contents of the source indices, the target indices, the edge
  weights and the self-loop weights; none of them writes an argument array.
-/
import proofs.«130467_j52871047413953_1_alg».proof.Proof.KernelArray
import proofs.«130467_j52871047413953_1_alg».proof.Proof.Aggregate

set_option maxRecDepth 16384

noncomputable section

namespace Cert.Bridge.Kernel

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 2000000 in
/-- The host operations after the region, from ANY contents `W` of the buffers: the program's result buffer ends at the
    aggregation of what `W` holds in the region's result array and in the four edge / node argument arrays. -/
theorem tail_of_valuation (W : Valuation τ sig (Elt Ideal)) :
    StableHlo.after hostOps1 W (Proc.devRef .tc main_v19)
      = Cert.Bridge.aggregate (F := Ideal) (W (Proc.devRef .tc main_v2)) (W (Proc.devRef .tc main_arg3)) (W (Proc.devRef .tc main_arg4))
          (W (Proc.devRef .tc main_arg5)) (W (Proc.devRef .tc main_arg6)) := by
  after_results
  rfl

/-- The program's result: the aggregation of `H` with the launch contents of the index and weight arrays. -/
theorem program_result (c : Dev nD) :
    Pipeline.afterTail₀ cfgs (dats m) 0 (V0 m) [hostOps1] c main_v19
      = Cert.Bridge.aggregate (F := Ideal) (H m c) (m ((c.tc : Thread nD τ).loc main_arg3)) (m ((c.tc : Thread nD τ).loc main_arg4))
          (m ((c.tc : Thread nD τ).loc main_arg5)) (m ((c.tc : Thread nD τ).loc main_arg6)) := by
  unfold Pipeline.afterTail₀
  simp only [List.flatten_cons, List.flatten_nil, List.append_nil]
  rw [tail_of_valuation]
  have hH : Pipeline.withArrays (cfgs 0).spec c (V0 m c) (fun w => (dats m 0 c).arrAt w (cfgs 0).N) (Proc.devRef .tc main_v2) = H m c :=
    (Pipeline.withArrays_arr spec0 launch0.win.arr_inj c _ _ 3).trans (region_result m c)
  have h3 : Pipeline.withArrays (cfgs 0).spec c (V0 m c) (fun w => (dats m 0 c).arrAt w (cfgs 0).N) (Proc.devRef .tc main_arg3) = m ((c.tc : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays (cfgs 0).spec c (V0 m c) (fun w => (dats m 0 c).arrAt w (cfgs 0).N) (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.devRef .tc main_arg5) = m ((c.tc : Thread nD τ).loc main_arg5) :=
    (Pipeline.withArrays_of_ne _ c (V0 m c) _ main_arg5 (by exact (by decide : ∀ w, Pipeline.arrRef spec0 w ≠ main_arg5))).trans (V_main_arg5 m c)
  have h6 : Pipeline.withArrays (cfgs 0).spec c (V0 m c) (fun w => (dats m 0 c).arrAt w (cfgs 0).N) (Proc.devRef .tc main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  rw [hH, h3, h4, h5, h6]

/-- Every weakly fair execution of the kernel's program terminates with its result at the aggregation of
    `x · Wᵀ + b` and its seven argument arrays as launched. -/
theorem run : θ_run defs (onTc (τ := τ) (main (F := Ideal))) ⟨m, fun _ => 0, ρ⟩ (fun r => ∀ c : Dev nD,
      r.2.mem ((c.tc : Thread nD τ).loc main_v19)
        = Cert.Bridge.aggregate (F := Ideal) (H m c) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v19 (Pipeline.mem_restRefs_of main_v19 (by decide) (by decide))).trans (program_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Bridge.Kernel

end
-- ==== Proof.RefProjection.lean ====
/-
  The reference, read through its stages: its first four operations compute H = x · Wᵀ + b (one contraction of axis 1
  of `x` with axis 1 of `W`, plus `b` broadcast down the rows), entry (p, q) being (∑ k, x[p, k] · W[q, k]) + b[q]; its
  remaining twenty operations are the aggregation applied to that H.
-/
import proofs.«130467_j52871047413953_1_alg».proof.Proof.Gen.ReferenceIdeal.Run
import proofs.«130467_j52871047413953_1_alg».proof.Proof.Gen.ReferenceIdeal.Read
import proofs.«130467_j52871047413953_1_alg».proof.Proof.Spec
import proofs.«130467_j52871047413953_1_alg».proof.Proof.Aggregate

noncomputable section

namespace Cert.Bridge.Reference

open Cert.ReferenceIdeal Cert.ReferenceIdeal.Gen Cert.ReferenceIdeal.Read Idealize.ShloMosaic Idealize.ShloMosaic.ValueIdx

/-- The reference's projected features are `x · Wᵀ + b`, entry by entry. -/
theorem features_eq (x0 : (⟨S50000x1024, .f32⟩ : BufTy).Contents (Elt Ideal)) (x1 : (⟨S256x1024, .f32⟩ : BufTy).Contents (Elt Ideal))
    (x2 : (⟨S256, .f32⟩ : BufTy).Contents (Elt Ideal)) :
    val_main_v3 (F := Ideal) x0 x1 x2 = Cert.Bridge.proj x0 x1 x2 := by
  funext i
  obtain ⟨p, q, rfl⟩ : ∃ (p : Fin 50000) (q : Fin 256), i = ix2 p q := ⟨i 0, i 1, eq_ix2 i⟩
  rw [val_main_v3_apply, val_main_v0_apply, val_main_v2_apply, val_main_v1_apply, Cert.Bridge.proj_ix2]
  unfold Cert.Bridge.projEntry
  have el : ∀ k : Fin 1024, lidx_main_v0 (ix2 p q) k = ix2 p k := fun k => funext fun a => Fin.ext (by
    match a with
    | ⟨0, _⟩ => rfl
    | ⟨1, _⟩ => rfl)
  have er : ∀ k : Fin 1024, ridx_main_v0 (ix2 p q) k = ix2 q k := fun k => funext fun a => Fin.ext (by
    match a with
    | ⟨0, _⟩ => rfl
    | ⟨1, _⟩ => rfl)
  have eb : idx_main_v1 (idx_main_v2 (ix2 p q)) = ix1 q := funext fun a => Fin.ext (by
    match a with
    | ⟨0, _⟩ => rfl)
  simp only [el, er, eb]
  rfl

/-- The reference's result is the aggregation of its projected features. -/
theorem result_eq (x0 : (⟨S50000x1024, .f32⟩ : BufTy).Contents (Elt Ideal)) (x1 : (⟨S256x1024, .f32⟩ : BufTy).Contents (Elt Ideal))
    (x2 : (⟨S256, .f32⟩ : BufTy).Contents (Elt Ideal)) (x3 x4 : (⟨S800000, .i32⟩ : BufTy).Contents (Elt Ideal))
    (x5 : (⟨S800000, .f32⟩ : BufTy).Contents (Elt Ideal)) (x6 : (⟨S50000, .f32⟩ : BufTy).Contents (Elt Ideal)) :
    val_main_v20 (F := Ideal) x0 x1 x2 x3 x4 x5 x6
      = Cert.Bridge.aggregate (F := Ideal) (val_main_v3 (F := Ideal) x0 x1 x2) x3 x4 x5 x6 := rfl

end Cert.Bridge.Reference

end
-- ==== Proof.lean ====
/-
  A graph convolution layer: H = x · Wᵀ + b over 50000 nodes (1024 → 256 channels), then
  out = scatter_add(H[src] · w, tar) + s · H over 800000 edges.

  The kernel computes H in a pipelined region of 25 grid points, each a 2000-row block of `x` times the whole weight
  array on the MXU (operands narrowed to bf16, accumulated in f32) plus the bias row; the reference computes H by one
  contraction over the whole arrays. On the extended reals a change of float format is the identity and both products
  are the same sum over the 1024 input channels, in the same order, so the two arrays H agree entry by entry with no
  appeal to finiteness of the inputs. Both programs then apply the same twenty host operations (index wrap, row gather,
  scaling by the edge weights, scatter-add into zeros, self-loop term) to their H, so the results agree.

  The three frames: the kernel's two are the generated frame runs; the reference's is its generated run with the result
  dropped. The idealization rewrote no operation, so there is nothing to preserve beyond the program's own text.
-/
import proofs.«130467_j52871047413953_1_alg».proof.Defs
import proofs.«130467_j52871047413953_1_alg».proof.Proof.Gen.Kernel
import proofs.«130467_j52871047413953_1_alg».proof.Proof.Gen.Kernel.Skeleton
import proofs.«130467_j52871047413953_1_alg».proof.Proof.Gen.Kernel.Launch
import proofs.«130467_j52871047413953_1_alg».proof.Proof.Gen.Kernel.Points
import proofs.«130467_j52871047413953_1_alg».proof.Proof.Gen.Kernel.Frame
import proofs.«130467_j52871047413953_1_alg».proof.Proof.Gen.KernelIdeal
import proofs.«130467_j52871047413953_1_alg».proof.Proof.Gen.KernelIdeal.Skeleton
import proofs.«130467_j52871047413953_1_alg».proof.Proof.Gen.KernelIdeal.Launch
import proofs.«130467_j52871047413953_1_alg».proof.Proof.Gen.KernelIdeal.Points
import proofs.«130467_j52871047413953_1_alg».proof.Proof.Gen.KernelIdeal.Frame
import proofs.«130467_j52871047413953_1_alg».proof.Proof.Gen.ReferenceIdeal
import proofs.«130467_j52871047413953_1_alg».proof.Proof.Gen.ReferenceIdeal.Run
import proofs.«130467_j52871047413953_1_alg».proof.Proof.Gen.ReferenceIdeal.Read
import proofs.«130467_j52871047413953_1_alg».proof.Proof.Gen.Pre_finite_inputs
import proofs.«130467_j52871047413953_1_alg».proof.Proof.KernelRun
import proofs.«130467_j52871047413953_1_alg».proof.Proof.RefProjection
import Idealize.ShloMosaic.Adequacy
import Idealize.ShloMosaic.Init

noncomputable section

namespace Cert.Proof

open Idealize.ShloMosaic Idealize.SL.Sem

/-- The kernel's program as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end at the aggregation of `x · Wᵀ + b`. -/
theorem algebraic : Cert.algebraic_KernelIdeal_ReferenceIdeal := by
  intro m ρ m' ρ' _ hagree
  refine ⟨_, Cert.Bridge.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Bridge.Reference.result_eq, Cert.Bridge.Reference.features_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
